-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg10 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg7 : FVec F S128 .f32) (main_arg8 : FVec F S128x128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_v33

def fn {F : FTy → Type} [FloatOps F] (main_arg0 : IVec S50000 32) (main_arg1 : FVec F S50000x128 .f32) (main_arg2 : IVec S2x800000 32) (main_arg3 : IVec S2x800000 32) (main_arg4 : FVec F S50000x128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg4
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_v13 main_v16
-- ==== Kernel.lean ====
abbrev S50000 : Shape := ⟨1, ![50000]⟩
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩
abbrev S50000x1 : Shape := ⟨2, ![50000, 1]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S5000x128 : Shape := ⟨2, ![5000, 128]⟩
abbrev S1x128 : Shape := ⟨2, ![1, 128]⟩

abbrev nBuf : Space → Nat
  | .hbm => 78
  | .vmem => 18
  | .smem => 0
  | _ => 0

abbrev bufTy : (tb : Table) → Fin (tcTables nBuf tb) → BufTy
  | .hbm, ⟨0, _⟩ => ⟨S50000, .i32⟩
  | .hbm, ⟨1, _⟩ => ⟨S50000x128, .f32⟩
  | .hbm, ⟨2, _⟩ => ⟨S2x800000, .i32⟩
  | .hbm, ⟨3, _⟩ => ⟨S2x800000, .i32⟩
  | .hbm, ⟨4, _⟩ => ⟨S50000x128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S50000x128, .f32⟩
  | .hbm, ⟨20, _⟩ => ⟨S1x800000, .i32⟩
  | .hbm, ⟨21, _⟩ => ⟨S800000, .i32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S1x800000, .i32⟩
  | .hbm, ⟨32, _⟩ => ⟨S800000, .i32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S_, .f32⟩
  | .hbm, ⟨38, _⟩ => ⟨S800000x1, .f32⟩
  | .hbm, ⟨39, _⟩ => ⟨S_, .f32⟩
  | .hbm, ⟨40, _⟩ => ⟨S50000x1, .f32⟩
  | .hbm, ⟨41, _⟩ => ⟨S800000x1, .i32⟩
  | .hbm, ⟨42, _⟩ => ⟨S50000x1, .f32⟩
  | .hbm, ⟨43, _⟩ => ⟨S_, .f32⟩
  | .hbm, ⟨44, _⟩ => ⟨S50000x1, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x800000, .i32⟩
  | .hbm, ⟨50, _⟩ => ⟨S800000, .i32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S1x800000, .i32⟩
  | .hbm, ⟨61, _⟩ => ⟨S800000, .i32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S_, .f32⟩
  | .hbm, ⟨67, _⟩ => ⟨S800000x1, .f32⟩
  | .hbm, ⟨68, _⟩ => ⟨S_, .f32⟩
  | .hbm, ⟨69, _⟩ => ⟨S50000x1, .f32⟩
  | .hbm, ⟨70, _⟩ => ⟨S800000x1, .i32⟩
  | .hbm, ⟨71, _⟩ => ⟨S50000x1, .f32⟩
  | .hbm, ⟨72, _⟩ => ⟨S_, .f32⟩
  | .hbm, ⟨73, _⟩ => ⟨S50000x1, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x128_S50000x1_S50000x128_1_0_n_n_0_1_1128_wf : GatherDims.WF S50000x128 S50000x1 S50000x128 [1] [0] [] [0] [] 1 ![1, 128]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v28) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v51) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000 : Shape := ⟨1, ![50000]⟩
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩
abbrev S50000x1 : Shape := ⟨2, ![50000, 1]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 88
  | .vmem => 0
  | .smem => 0
  | _ => 0

abbrev bufTy : (tb : Table) → Fin (tcTables nBuf tb) → BufTy
  | .hbm, ⟨0, _⟩ => ⟨S50000, .i32⟩
  | .hbm, ⟨1, _⟩ => ⟨S50000x128, .f32⟩
  | .hbm, ⟨2, _⟩ => ⟨S2x800000, .i32⟩
  | .hbm, ⟨3, _⟩ => ⟨S2x800000, .i32⟩
  | .hbm, ⟨4, _⟩ => ⟨S50000x128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S50000x128, .f32⟩
  | .hbm, ⟨20, _⟩ => ⟨S1x800000, .i32⟩
  | .hbm, ⟨21, _⟩ => ⟨S800000, .i32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S1x800000, .i32⟩
  | .hbm, ⟨32, _⟩ => ⟨S800000, .i32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S_, .f32⟩
  | .hbm, ⟨38, _⟩ => ⟨S800000x1, .f32⟩
  | .hbm, ⟨39, _⟩ => ⟨S_, .f32⟩
  | .hbm, ⟨40, _⟩ => ⟨S50000x1, .f32⟩
  | .hbm, ⟨41, _⟩ => ⟨S800000x1, .i32⟩
  | .hbm, ⟨42, _⟩ => ⟨S50000x1, .f32⟩
  | .hbm, ⟨43, _⟩ => ⟨S_, .f32⟩
  | .hbm, ⟨44, _⟩ => ⟨S50000x1, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S1x800000, .i32⟩
  | .hbm, ⟨55, _⟩ => ⟨S800000, .i32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S1x800000, .i32⟩
  | .hbm, ⟨66, _⟩ => ⟨S800000, .i32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S_, .f32⟩
  | .hbm, ⟨72, _⟩ => ⟨S800000x1, .f32⟩
  | .hbm, ⟨73, _⟩ => ⟨S_, .f32⟩
  | .hbm, ⟨74, _⟩ => ⟨S50000x1, .f32⟩
  | .hbm, ⟨75, _⟩ => ⟨S800000x1, .i32⟩
  | .hbm, ⟨76, _⟩ => ⟨S50000x1, .f32⟩
  | .hbm, ⟨77, _⟩ => ⟨S_, .f32⟩
  | .hbm, ⟨78, _⟩ => ⟨S50000x1, .f32⟩
  | .hbm, ⟨79, _⟩ => ⟨S50000x1, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S50000x1_S50000x128_1_0_n_n_0_1_1128_wf : GatherDims.WF S50000x128 S50000x1 S50000x128 [1] [0] [] [0] [] 1 ![1, 128]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  One SAGE combine layer as a function of whole arrays, index by index, on the extended reals:
  row r, column c of the result is
      (∑ₖ agg[r,k] · Wl[k,c]  +  ∑ₖ other[r,k] · Wr[k,c])  +  b[c].
  The row count is a parameter: the kernel computes this on blocks of 5000 rows, the reference on all 50000.
  A block of rows of the result depends only on the same rows of agg and other (and on all of Wl, Wr, b),
  which is the whole content of the tiling.
-/
import Idealize.ShloMosaic.PureOps.Ideal
import Idealize.ShloMosaic.Lib.ValueIdx

noncomputable section

open scoped BigOperators
open Idealize.ShloMosaic Idealize.ShloMosaic.ValueIdx

namespace Cert.Sage

/-- `combine agg other Wl Wr b` at `(r, c)`: the two 128-term row-by-column sums, added, plus the bias entry. -/
def combine {n : Nat} (agg other : (⟨2, ![n, 128]⟩ : Shape).Idx → EReal)
    (wl wr : (⟨2, ![128, 128]⟩ : Shape).Idx → EReal) (b : (⟨1, ![128]⟩ : Shape).Idx → EReal) :
    (⟨2, ![n, 128]⟩ : Shape).Idx → EReal :=
  fun i => (∑ k : Fin 128, agg (ix2 (i 0) k) * wl (ix2 k (i 1)) + ∑ k : Fin 128, other (ix2 (i 0) k) * wr (ix2 k (i 1)))
    + b (ix1 (i 1))

theorem combine_apply {n : Nat} (agg other : (⟨2, ![n, 128]⟩ : Shape).Idx → EReal)
    (wl wr : (⟨2, ![128, 128]⟩ : Shape).Idx → EReal) (b : (⟨1, ![128]⟩ : Shape).Idx → EReal) (r : Fin n) (c : Fin 128) :
    combine agg other wl wr b (ix2 r c)
      = (∑ k : Fin 128, agg (ix2 r k) * wl (ix2 k c) + ∑ k : Fin 128, other (ix2 r k) * wr (ix2 k c)) + b (ix1 c) := rfl

/-- Rows `5000·t + p` of the layer on 50000 rows are rows `p` of the layer on the 5000-row blocks `t` of agg and other. -/
theorem combine_block (agg other : (⟨2, ![50000, 128]⟩ : Shape).Idx → EReal)
    (ablk oblk : (⟨2, ![5000, 128]⟩ : Shape).Idx → EReal)
    (wl wr : (⟨2, ![128, 128]⟩ : Shape).Idx → EReal) (b : (⟨1, ![128]⟩ : Shape).Idx → EReal)
    (R : Fin 50000) (p : Fin 5000)
    (ha : ∀ k : Fin 128, ablk (ix2 p k) = agg (ix2 R k)) (ho : ∀ k : Fin 128, oblk (ix2 p k) = other (ix2 R k)) (c : Fin 128) :
    combine ablk oblk wl wr b (ix2 p c) = combine agg other wl wr b (ix2 R c) := by
  rw [combine_apply, combine_apply]
  simp only [ha, ho]

end Cert.Sage

end
-- ==== Proof.Payload.lean ====
/-
  What the kernel body stores, read at one entry of its 5000-row block: at the exact instance the casts to
  bf16 are the identity and each block product into a zero accumulator is a plain 128-term sum, so entry (p, q)
  of the stored block is
      (∑ₖ agg[p,k] · Wl[k,q] + ∑ₖ other[p,k] · Wr[k,q]) + b[q],
  the combine layer of `Spec.lean` on the block's own rows. Both launches store the same function (the second
  only passes one more identity shape cast over its second operand).
-/
import proofs.«141635_j4269197492519_1_alg».proof.Proof.Gen.KernelIdeal.Skeleton
import proofs.«141635_j4269197492519_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Hand

open Cert.KernelIdeal Cert.KernelIdeal.Gen

/-! ## The block product's operand indices, axis by axis -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000×128 by 128×128 block product into the zero accumulator, at `(p, q)`: row `p` of the left operand
    against column `q` of the right. -/
theorem matmul_at (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The bias row, cast to one row and broadcast down the block, reads `b[q]` at `(p, q)`. -/
theorem bias_at (b : FVec Ideal S128 .f32) (p : Fin 5000) (q : Fin 128) :
    broadcastTo S5000x128 (shapeCast S1x128 b shapeCasts_S128_S1x128) broadcasts_S1x128_S5000x128 (ix2 p q) = b (ix1 q) := by
  refine (broadcastTo_1b_ab_apply (shapeCast S1x128 b shapeCasts_S128_S1x128) broadcasts_S1x128_S5000x128 p q).trans ?_
  exact shapeCast_a_1a_apply b shapeCasts_S128_S1x128 (0 : Fin 1) q

/-! ## The two stored blocks -/

/-- The first launch's stored block is the combine layer of its five loaded blocks. -/
theorem pay0_eq (x0 x1 : Vec Ideal S5000x128 .f32) (x2 x3 : Vec Ideal S128x128 .f32) (x4 : Vec Ideal S128 .f32) :
    k0_pay1 (F := Ideal) x0 x1 x2 x3 x4 = Cert.Sage.combine x0 x1 x2 x3 x4 := by
  funext j
  obtain ⟨p, q, rfl⟩ : ∃ (p : Fin 5000) (q : Fin 128), j = ix2 p q := ⟨j 0, j 1, eq_ix2 j⟩
  unfold k0_pay1
  rw [Cert.Sage.combine_apply]
  refine (addf_apply _ _ _).trans ?_
  refine congrArg₂ (· + ·) ((addf_apply _ _ _).trans (congrArg₂ (· + ·) ?_ ?_)) (bias_at x4 p q)
  · refine (matmul_at _ _ p q).trans ?_
    simp only [truncf_apply, shapeCast_self]
  · exact matmul_at _ _ p q

/-- The second launch's stored block is the same layer of its five loaded blocks. -/
theorem pay1_eq (x0 x1 : Vec Ideal S5000x128 .f32) (x2 x3 : Vec Ideal S128x128 .f32) (x4 : Vec Ideal S128 .f32) :
    k1_pay1 (F := Ideal) x0 x1 x2 x3 x4 = Cert.Sage.combine x0 x1 x2 x3 x4 := by
  funext j
  obtain ⟨p, q, rfl⟩ : ∃ (p : Fin 5000) (q : Fin 128), j = ix2 p q := ⟨j 0, j 1, eq_ix2 j⟩
  unfold k1_pay1
  rw [Cert.Sage.combine_apply]
  refine (addf_apply _ _ _).trans ?_
  refine congrArg₂ (· + ·) ((addf_apply _ _ _).trans (congrArg₂ (· + ·) ?_ ?_)) (bias_at x4 p q)
  · refine (matmul_at _ _ p q).trans ?_
    simp only [truncf_apply, shapeCast_self]
  · refine (matmul_at _ _ p q).trans ?_
    simp only [truncf_apply, shapeCast_self]

end Cert.KernelIdeal.Hand

end
-- ==== Proof.Blocks.lean ====
/-
  From blocks to the array, for each of the two launches, at ANY contents `V` the launch is entered from.
  The grid has ten points; point t reads rows 5000·t … 5000·t + 4999 of the two row-tiled operands, the whole of
  both weight matrices and of the bias, and writes back rows 5000·t … 5000·t + 4999 of the result. A row of the
  combine layer depends only on the same row of the row-tiled operands, so what point t writes back is block t of
  the layer applied to the WHOLE arrays; the ten blocks tile the result, which therefore ends holding the layer of
  the whole arrays.
-/
import proofs.«141635_j4269197492519_1_alg».proof.Proof.Gen.KernelIdeal.Frame
import proofs.«141635_j4269197492519_1_alg».proof.Proof.Payload
import Idealize.ShloMosaic.Lib.Pipeline.Value

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-! # The first launch -/

/-- Its index maps over the grid: the row-tiled windows (0, 1 and the result 5) sit at block row `t`, the weight and
    bias windows at block 0. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p` of block `t` of the first row-tiled operand is row `5000·t + p` of its array. -/
theorem rows0_0 (c : Dev nD) (t : Fin cfg0.N) (p : Fin 5000) (k : Fin 128) (R : Fin 50000) (hR : R.val = 5000 * t.val + p.val) :
    (iblk0 V c 0 t : Vec Ideal S5000x128 .f32) (ix2 p k) = (V c main_v28 : FVec Ideal S50000x128 .f32) (ix2 R k) := by
  obtain ⟨e0, e1, -⟩ := index0 t
  unfold iblk0
  rw [View.read_apply]
  show V c main_v28 _ = V c main_v28 _
  refine congrArg _ (funext fun a => Fin.ext ?_)
  match a with
  | ⟨0, _⟩ => show win0_0.index t (0 : Fin 2) * 5000 + 1 * p.val = R.val; rw [e0, hR]; omega
  | ⟨1, _⟩ => show win0_0.index t (1 : Fin 2) * 128 + 1 * k.val = k.val; rw [e1]; omega

/-- The same for the second row-tiled operand. -/
theorem rows0_1 (c : Dev nD) (t : Fin cfg0.N) (p : Fin 5000) (k : Fin 128) (R : Fin 50000) (hR : R.val = 5000 * t.val + p.val) :
    (iblk0 V c 1 t : Vec Ideal S5000x128 .f32) (ix2 p k) = (V c main_arg1 : FVec Ideal S50000x128 .f32) (ix2 R k) := by
  obtain ⟨-, -, e0, e1, -⟩ := index0 t
  unfold iblk0
  rw [View.read_apply]
  show V c main_arg1 _ = V c main_arg1 _
  refine congrArg _ (funext fun a => Fin.ext ?_)
  match a with
  | ⟨0, _⟩ => show win0_1.index t (0 : Fin 2) * 5000 + 1 * p.val = R.val; rw [e0, hR]; omega
  | ⟨1, _⟩ => show win0_1.index t (1 : Fin 2) * 128 + 1 * k.val = k.val; rw [e1]; omega

/-- The weight windows' one block is the whole matrix, at every point. -/
theorem whole0_2 (c : Dev nD) (t : Fin cfg0.N) : (iblk0 V c 2 t : Vec Ideal S128x128 .f32) = (V c main_arg5 : FVec Ideal S128x128 .f32) := by
  obtain ⟨-, -, -, -, e0, e1, -⟩ := index0 t
  funext x
  unfold iblk0
  rw [View.read_apply]
  show V c main_arg5 _ = V c main_arg5 _
  refine congrArg _ (funext fun a => Fin.ext ?_)
  match a with
  | ⟨0, _⟩ => show win0_2.index t (0 : Fin 2) * 128 + 1 * (x 0).val = (x 0).val; rw [e0]; omega
  | ⟨1, _⟩ => show win0_2.index t (1 : Fin 2) * 128 + 1 * (x 1).val = (x 1).val; rw [e1]; omega

theorem whole0_3 (c : Dev nD) (t : Fin cfg0.N) : (iblk0 V c 3 t : Vec Ideal S128x128 .f32) = (V c main_arg6 : FVec Ideal S128x128 .f32) := by
  obtain ⟨-, -, -, -, -, -, e0, e1, -⟩ := index0 t
  funext x
  unfold iblk0
  rw [View.read_apply]
  show V c main_arg6 _ = V c main_arg6 _
  refine congrArg _ (funext fun a => Fin.ext ?_)
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

/-- The bias window's one block is the whole bias row. -/
theorem whole0_4 (c : Dev nD) (t : Fin cfg0.N) : (iblk0 V c 4 t : Vec Ideal S128 .f32) = (V c main_arg7 : FVec Ideal S128 .f32) := by
  obtain ⟨-, -, -, -, -, -, -, -, e0, -⟩ := index0 t
  funext x
  unfold iblk0
  rw [View.read_apply]
  show V c main_arg7 _ = V c main_arg7 _
  refine congrArg _ (funext fun a => Fin.ext ?_)
  match a with
  | ⟨0, _⟩ => show win0_4.index t (0 : Fin 1) * 128 + 1 * (x 0).val = (x 0).val; rw [e0]; omega

/-- What point `t` writes back is block `t` of the layer of the whole arrays. -/
theorem flushed0 (c : Dev nD) (t : Fin cfg0.N) :
    (dat0 V c).flushed 5 t = ((cfg0.win 5).blk t).view.read (Elt Ideal)
      (Cert.Sage.combine (V c main_v28) (V c main_arg1) (V c main_arg5) (V c main_arg6) (V c main_arg7)) := by
  show (cfg0.win 5).cut (grid0.coords t) ((dat0 V c).after 5 t) = _
  rw [after0_5]
  unfold out0_5
  rw [View.canon_unit_zero zero2]
  simp only [View.ld_unit_zero (S := S5000x128) zero2, View.ld_unit_zero (S := S128x128) zero2, View.ld_unit_zero (S := S128) zero1]
  rw [pay0_eq, whole0_2 V c t, whole0_3 V c t, whole0_4 V c t]
  obtain ⟨-, -, -, -, -, -, -, -, -, e0, e1⟩ := index0 t
  have hN : t.val < 10 := Nat.lt_of_lt_of_eq t.isLt (show cfg0.N = 10 from N_0)
  funext j
  obtain ⟨p, q, rfl⟩ : ∃ (p : Fin 5000) (q : Fin 128), j = ix2 p q := ⟨j 0, j 1, eq_ix2 j⟩
  have hR : 5000 * t.val + p.val < 50000 := by have := p.isLt; omega
  have hemb : ((cfg0.win 5).blk t).view.emb (ix2 p q) = ix2 (⟨5000 * t.val + p.val, hR⟩ : Fin 50000) q := funext fun a => Fin.ext (by
    match a with
    | ⟨0, _⟩ => show win0_5.index t (0 : Fin 2) * 5000 + 1 * p.val = 5000 * t.val + p.val; rw [e0]; omega
    | ⟨1, _⟩ => show win0_5.index t (1 : Fin 2) * 128 + 1 * q.val = q.val; rw [e1]; omega)
  show Cert.Sage.combine (iblk0 V c 0 t : Vec Ideal S5000x128 .f32) (iblk0 V c 1 t : Vec Ideal S5000x128 .f32) (V c main_arg5) (V c main_arg6) (V c main_arg7) (ix2 p q)
    = Cert.Sage.combine (V c main_v28) (V c main_arg1) (V c main_arg5) (V c main_arg6) (V c main_arg7) (((cfg0.win 5).blk t).view.emb (ix2 p q))
  rw [hemb]
  exact Cert.Sage.combine_block (V c main_v28) (V c main_arg1) _ _ (V c main_arg5) (V c main_arg6) (V c main_arg7) _ p
    (fun k => rows0_0 V c t p k _ rfl) (fun k => rows0_1 V c t p k _ rfl) q

/-- Every row of the result is in some point's block: row `r` in block `r / 5000`. -/
theorem cover0 (i : S50000x128.Idx) : ∃ t : Fin cfg0.N, (cfg0.win 5).flush t = true ∧ i ∈ ((cfg0.win 5).blk t).view.set := by
  have h0 : (i 0).val < 50000 := (i 0).isLt
  have h1 : (i 1).val < 128 := (i 1).isLt
  let t : Fin cfg0.N := ⟨(i 0).val / 5000, by rw [show cfg0.N = 10 from N_0]; omega⟩
  obtain ⟨-, -, -, -, -, -, -, -, -, e0, e1⟩ := index0 t
  refine ⟨t, flush0_5 t, ?_⟩
  show i ∈ ((View.whole main_v29).slice (win0_5.rect t)).set
  rw [View.set_slice_whole, Rect.mem_set_unit]
  intro a
  match a with
  | ⟨0, _⟩ =>
    show win0_5.index t (0 : Fin 2) * 5000 ≤ (i 0).val ∧ (i 0).val < win0_5.index t (0 : Fin 2) * 5000 + 5000
    rw [e0]; show (i 0).val / 5000 * 5000 ≤ (i 0).val ∧ (i 0).val < (i 0).val / 5000 * 5000 + 5000; omega
  | ⟨1, _⟩ =>
    show win0_5.index t (1 : Fin 2) * 128 ≤ (i 1).val ∧ (i 1).val < win0_5.index t (1 : Fin 2) * 128 + 128
    rw [e1]; omega

/-- The first launch's result array ends holding the layer of the arrays it was entered from. -/
theorem final0 (c : Dev nD) :
    (dat0 V c).arrAt 5 cfg0.N = Cert.Sage.combine (V c main_v28) (V c main_arg1) (V c main_arg5) (V c main_arg6) (V c main_arg7) :=
  (dat0 V c).arrAt_eq_of_cover 5 _ (fun t _ => flushed0 V c t) (cover0)

/-! # The second launch

The same grid and the same tiling, over its own windows: the per-user mean and the gathered user table row-tiled, the
second pair of weights and the second bias whole. -/

theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem rows1_0 (c : Dev nD) (t : Fin cfg1.N) (p : Fin 5000) (k : Fin 128) (R : Fin 50000) (hR : R.val = 5000 * t.val + p.val) :
    (iblk1 V c 0 t : Vec Ideal S5000x128 .f32) (ix2 p k) = (V c main_v51 : FVec Ideal S50000x128 .f32) (ix2 R k) := by
  obtain ⟨e0, e1, -⟩ := index1 t
  unfold iblk1
  rw [View.read_apply]
  show V c main_v51 _ = V c main_v51 _
  refine congrArg _ (funext fun a => Fin.ext ?_)
  match a with
  | ⟨0, _⟩ => show win1_0.index t (0 : Fin 2) * 5000 + 1 * p.val = R.val; rw [e0, hR]; omega
  | ⟨1, _⟩ => show win1_0.index t (1 : Fin 2) * 128 + 1 * k.val = k.val; rw [e1]; omega

theorem rows1_1 (c : Dev nD) (t : Fin cfg1.N) (p : Fin 5000) (k : Fin 128) (R : Fin 50000) (hR : R.val = 5000 * t.val + p.val) :
    (iblk1 V c 1 t : Vec Ideal S5000x128 .f32) (ix2 p k) = (V c main_v6 : FVec Ideal S50000x128 .f32) (ix2 R k) := by
  obtain ⟨-, -, e0, e1, -⟩ := index1 t
  unfold iblk1
  rw [View.read_apply]
  show V c main_v6 _ = V c main_v6 _
  refine congrArg _ (funext fun a => Fin.ext ?_)
  match a with
  | ⟨0, _⟩ => show win1_1.index t (0 : Fin 2) * 5000 + 1 * p.val = R.val; rw [e0, hR]; omega
  | ⟨1, _⟩ => show win1_1.index t (1 : Fin 2) * 128 + 1 * k.val = k.val; rw [e1]; omega

theorem whole1_2 (c : Dev nD) (t : Fin cfg1.N) : (iblk1 V c 2 t : Vec Ideal S128x128 .f32) = (V c main_arg8 : FVec Ideal S128x128 .f32) := by
  obtain ⟨-, -, -, -, e0, e1, -⟩ := index1 t
  funext x
  unfold iblk1
  rw [View.read_apply]
  show V c main_arg8 _ = V c main_arg8 _
  refine congrArg _ (funext fun a => Fin.ext ?_)
  match a with
  | ⟨0, _⟩ => show win1_2.index t (0 : Fin 2) * 128 + 1 * (x 0).val = (x 0).val; rw [e0]; omega
  | ⟨1, _⟩ => show win1_2.index t (1 : Fin 2) * 128 + 1 * (x 1).val = (x 1).val; rw [e1]; omega

theorem whole1_3 (c : Dev nD) (t : Fin cfg1.N) : (iblk1 V c 3 t : Vec Ideal S128x128 .f32) = (V c main_arg9 : FVec Ideal S128x128 .f32) := by
  obtain ⟨-, -, -, -, -, -, e0, e1, -⟩ := index1 t
  funext x
  unfold iblk1
  rw [View.read_apply]
  show V c main_arg9 _ = V c main_arg9 _
  refine congrArg _ (funext fun a => Fin.ext ?_)
  match a with
  | ⟨0, _⟩ => show win1_3.index t (0 : Fin 2) * 128 + 1 * (x 0).val = (x 0).val; rw [e0]; omega
  | ⟨1, _⟩ => show win1_3.index t (1 : Fin 2) * 128 + 1 * (x 1).val = (x 1).val; rw [e1]; omega

theorem whole1_4 (c : Dev nD) (t : Fin cfg1.N) : (iblk1 V c 4 t : Vec Ideal S128 .f32) = (V c main_arg10 : FVec Ideal S128 .f32) := by
  obtain ⟨-, -, -, -, -, -, -, -, e0, -⟩ := index1 t
  funext x
  unfold iblk1
  rw [View.read_apply]
  show V c main_arg10 _ = V c main_arg10 _
  refine congrArg _ (funext fun a => Fin.ext ?_)
  match a with
  | ⟨0, _⟩ => show win1_4.index t (0 : Fin 1) * 128 + 1 * (x 0).val = (x 0).val; rw [e0]; omega

theorem flushed1 (c : Dev nD) (t : Fin cfg1.N) :
    (dat1 V c).flushed 5 t = ((cfg1.win 5).blk t).view.read (Elt Ideal)
      (Cert.Sage.combine (V c main_v51) (V c main_v6) (V c main_arg8) (V c main_arg9) (V c main_arg10)) := by
  show (cfg1.win 5).cut (grid1.coords t) ((dat1 V c).after 5 t) = _
  rw [after1_5]
  unfold out1_5
  rw [View.canon_unit_zero zero2]
  simp only [View.ld_unit_zero (S := S5000x128) zero2, View.ld_unit_zero (S := S128x128) zero2, View.ld_unit_zero (S := S128) zero1]
  rw [pay1_eq, whole1_2 V c t, whole1_3 V c t, whole1_4 V c t]
  obtain ⟨-, -, -, -, -, -, -, -, -, e0, e1⟩ := index1 t
  have hN : t.val < 10 := Nat.lt_of_lt_of_eq t.isLt (show cfg1.N = 10 from N_1)
  funext j
  obtain ⟨p, q, rfl⟩ : ∃ (p : Fin 5000) (q : Fin 128), j = ix2 p q := ⟨j 0, j 1, eq_ix2 j⟩
  have hR : 5000 * t.val + p.val < 50000 := by have := p.isLt; omega
  have hemb : ((cfg1.win 5).blk t).view.emb (ix2 p q) = ix2 (⟨5000 * t.val + p.val, hR⟩ : Fin 50000) q := funext fun a => Fin.ext (by
    match a with
    | ⟨0, _⟩ => show win1_5.index t (0 : Fin 2) * 5000 + 1 * p.val = 5000 * t.val + p.val; rw [e0]; omega
    | ⟨1, _⟩ => show win1_5.index t (1 : Fin 2) * 128 + 1 * q.val = q.val; rw [e1]; omega)
  show Cert.Sage.combine (iblk1 V c 0 t : Vec Ideal S5000x128 .f32) (iblk1 V c 1 t : Vec Ideal S5000x128 .f32) (V c main_arg8) (V c main_arg9) (V c main_arg10) (ix2 p q)
    = Cert.Sage.combine (V c main_v51) (V c main_v6) (V c main_arg8) (V c main_arg9) (V c main_arg10) (((cfg1.win 5).blk t).view.emb (ix2 p q))
  rw [hemb]
  exact Cert.Sage.combine_block (V c main_v51) (V c main_v6) _ _ (V c main_arg8) (V c main_arg9) (V c main_arg10) _ p
    (fun k => rows1_0 V c t p k _ rfl) (fun k => rows1_1 V c t p k _ rfl) q

theorem cover1 (i : S50000x128.Idx) : ∃ t : Fin cfg1.N, (cfg1.win 5).flush t = true ∧ i ∈ ((cfg1.win 5).blk t).view.set := by
  have h0 : (i 0).val < 50000 := (i 0).isLt
  have h1 : (i 1).val < 128 := (i 1).isLt
  let t : Fin cfg1.N := ⟨(i 0).val / 5000, by rw [show cfg1.N = 10 from N_1]; omega⟩
  obtain ⟨-, -, -, -, -, -, -, -, -, e0, e1⟩ := index1 t
  refine ⟨t, flush1_5 t, ?_⟩
  show i ∈ ((View.whole main_v52).slice (win1_5.rect t)).set
  rw [View.set_slice_whole, Rect.mem_set_unit]
  intro a
  match a with
  | ⟨0, _⟩ =>
    show win1_5.index t (0 : Fin 2) * 5000 ≤ (i 0).val ∧ (i 0).val < win1_5.index t (0 : Fin 2) * 5000 + 5000
    rw [e0]; show (i 0).val / 5000 * 5000 ≤ (i 0).val ∧ (i 0).val < (i 0).val / 5000 * 5000 + 5000; omega
  | ⟨1, _⟩ =>
    show win1_5.index t (1 : Fin 2) * 128 ≤ (i 1).val ∧ (i 1).val < win1_5.index t (1 : Fin 2) * 128 + 128
    rw [e1]; omega

/-- The second launch's result array ends holding the layer of the arrays it was entered from. -/
theorem final1 (c : Dev nD) :
    (dat1 V c).arrAt 5 cfg1.N = Cert.Sage.combine (V c main_v51) (V c main_v6) (V c main_arg8) (V c main_arg9) (V c main_arg10) :=
  (dat1 V c).arrAt_eq_of_cover 5 _ (fun t _ => flushed1 V c t) (cover1)

end Cert.KernelIdeal.Hand

end
-- ==== Proof.HostChain.lean ====
/-
  The contents each launch is entered from, named.
  Nothing on the host writes an argument array, and a launch writes only its own result, so at both launches'
  entries every argument still holds what the program was started with. The three computed operands —
  the mean of gathered user rows per item (the first launch's first operand), the gathered user table (the second
  launch's second operand) and the mean of gathered item rows per user (its first operand) — are reached by the same
  host operations, in the same order and with the same dimension numbers, as the reference applies to its own
  arguments: gather, scatter-add of rows and of ones, maximum with one, broadcast, divide. So each is the reference's
  stage function of the launch arguments, and the chain itself is never opened.
-/
import proofs.«141635_j4269197492519_1_alg».proof.Proof.Gen.KernelIdeal.Frame
import proofs.«141635_j4269197492519_1_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable {F : FTy → Type} [FloatOps F]
variable (m : (ℓ : Loc nD τ sig) → Buf (Elt F) ℓ) (ρ : Dev nD → PrngReg)

/-- No operation of the two host stretches writes the reference in the goal: each operation writes its own result
    buffer only, and the references are told apart by their numbers. -/
local macro "not_written" : tactic =>
  `(tactic| (refine StableHlo.after_of_forall_not_mem _ _ (List.forall_iff_forall_mem.mp ?_)
             simp only [hostOps0, hostOps1, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## At the first launch's entry -/

theorem entry0_arg1 (c : Dev nD) : V1 m ρ c main_arg1 = m ((c : Thread nD τ).loc main_arg1) :=
  (show StableHlo.after hostOps0 (W0 m ρ c) (Proc.devRef .tc main_arg1) = W0 m ρ c (Proc.devRef .tc main_arg1) by not_written)
theorem entry0_arg5 (c : Dev nD) : V1 m ρ c main_arg5 = m ((c : Thread nD τ).loc main_arg5) :=
  (show StableHlo.after hostOps0 (W0 m ρ c) (Proc.devRef .tc main_arg5) = W0 m ρ c (Proc.devRef .tc main_arg5) by not_written)
theorem entry0_arg6 (c : Dev nD) : V1 m ρ c main_arg6 = m ((c : Thread nD τ).loc main_arg6) :=
  (show StableHlo.after hostOps0 (W0 m ρ c) (Proc.devRef .tc main_arg6) = W0 m ρ c (Proc.devRef .tc main_arg6) by not_written)
theorem entry0_arg7 (c : Dev nD) : V1 m ρ c main_arg7 = m ((c : Thread nD τ).loc main_arg7) :=
  (show StableHlo.after hostOps0 (W0 m ρ c) (Proc.devRef .tc main_arg7) = W0 m ρ c (Proc.devRef .tc main_arg7) by not_written)

/-- The gathered user table, as the first host stretch leaves it. -/
theorem entry0_users (c : Dev nD) :
    V1 m ρ c main_v6 = Cert.ReferenceIdeal.Read.val_main_v6 (F := F) (m ((c : Thread nD τ).loc main_arg0)) (m ((c : Thread nD τ).loc main_arg4)) := by
  show StableHlo.after hostOps0 (W0 m ρ c) (Proc.devRef .tc main_v6) = _
  after_results_simp
  rfl

/-- The per-item mean of gathered user rows: the first launch's first operand. -/
theorem entry0_mean (c : Dev nD) :
    V1 m ρ c main_v28 = Cert.ReferenceIdeal.Read.val_main_v28 (F := F) (m ((c : Thread nD τ).loc main_arg0)) (m ((c : Thread nD τ).loc main_arg2)) (m ((c : Thread nD τ).loc main_arg4)) := by
  show StableHlo.after hostOps0 (W0 m ρ c) (Proc.devRef .tc main_v28) = _
  after_results_simp
  rfl

/-! ## At the second launch's entry -/

/-- The first launch leaves its second operand, the item features, as it found them (an input window's array is
    never written back). -/
theorem exit0_arg1 (c : Dev nD) : W2 m ρ c (Proc.devRef .tc main_arg1) = m ((c : Thread nD τ).loc main_arg1) :=
  ((W2_arr m ρ c 1).trans (((dat0 (V1 m ρ) c).arrAt_in 1 rfl _).trans (A_eq0 (V1 m ρ) c 1))).trans (entry0_arg1 m ρ c)

/-- It does not touch the second edge list. -/
theorem exit0_arg3 (c : Dev nD) : W2 m ρ c (Proc.devRef .tc main_arg3) = m ((c : Thread nD τ).loc main_arg3) :=
  (W2_of_ne m ρ c main_arg3 (by decide)).trans
    (show StableHlo.after hostOps0 (W0 m ρ c) (Proc.devRef .tc main_arg3) = W0 m ρ c (Proc.devRef .tc main_arg3) by not_written)

theorem entry1_arg8 (c : Dev nD) : V3 m ρ c main_arg8 = m ((c : Thread nD τ).loc main_arg8) :=
  calc V3 m ρ c main_arg8
    _ = W2 m ρ c (Proc.devRef .tc main_arg8) :=
        (show StableHlo.after hostOps1 (W2 m ρ c) (Proc.devRef .tc main_arg8) = W2 m ρ c (Proc.devRef .tc main_arg8) by not_written)
    _ = W1 m ρ c (Proc.devRef .tc main_arg8) := W2_of_ne m ρ c main_arg8 (by decide)
    _ = m ((c : Thread nD τ).loc main_arg8) :=
        (show StableHlo.after hostOps0 (W0 m ρ c) (Proc.devRef .tc main_arg8) = W0 m ρ c (Proc.devRef .tc main_arg8) by not_written)
theorem entry1_arg9 (c : Dev nD) : V3 m ρ c main_arg9 = m ((c : Thread nD τ).loc main_arg9) :=
  calc V3 m ρ c main_arg9
    _ = W2 m ρ c (Proc.devRef .tc main_arg9) :=
        (show StableHlo.after hostOps1 (W2 m ρ c) (Proc.devRef .tc main_arg9) = W2 m ρ c (Proc.devRef .tc main_arg9) by not_written)
    _ = W1 m ρ c (Proc.devRef .tc main_arg9) := W2_of_ne m ρ c main_arg9 (by decide)
    _ = m ((c : Thread nD τ).loc main_arg9) :=
        (show StableHlo.after hostOps0 (W0 m ρ c) (Proc.devRef .tc main_arg9) = W0 m ρ c (Proc.devRef .tc main_arg9) by not_written)
theorem entry1_arg10 (c : Dev nD) : V3 m ρ c main_arg10 = m ((c : Thread nD τ).loc main_arg10) :=
  calc V3 m ρ c main_arg10
    _ = W2 m ρ c (Proc.devRef .tc main_arg10) :=
        (show StableHlo.after hostOps1 (W2 m ρ c) (Proc.devRef .tc main_arg10) = W2 m ρ c (Proc.devRef .tc main_arg10) by not_written)
    _ = W1 m ρ c (Proc.devRef .tc main_arg10) := W2_of_ne m ρ c main_arg10 (by decide)
    _ = m ((c : Thread nD τ).loc main_arg10) :=
        (show StableHlo.after hostOps0 (W0 m ρ c) (Proc.devRef .tc main_arg10) = W0 m ρ c (Proc.devRef .tc main_arg10) by not_written)

/-- The gathered user table is still what the first host stretch computed: neither the first launch nor the second
    host stretch writes it. -/
theorem entry1_users (c : Dev nD) :
    V3 m ρ c main_v6 = Cert.ReferenceIdeal.Read.val_main_v6 (F := F) (m ((c : Thread nD τ).loc main_arg0)) (m ((c : Thread nD τ).loc main_arg4)) :=
  calc V3 m ρ c main_v6
    _ = W2 m ρ c (Proc.devRef .tc main_v6) :=
        (show StableHlo.after hostOps1 (W2 m ρ c) (Proc.devRef .tc main_v6) = W2 m ρ c (Proc.devRef .tc main_v6) by not_written)
    _ = W1 m ρ c (Proc.devRef .tc main_v6) := W2_of_ne m ρ c main_v6 (by decide)
    _ = _ := entry0_users m ρ c

/-- The per-user mean of gathered item rows: the second launch's first operand, computed by the second host stretch
    from the item features and the second edge list as the first launch left them. -/
theorem entry1_mean (c : Dev nD) :
    V3 m ρ c main_v51 = Cert.ReferenceIdeal.Read.val_main_v56 (F := F) (m ((c : Thread nD τ).loc main_arg1)) (m ((c : Thread nD τ).loc main_arg3)) := by
  show StableHlo.after hostOps1 (W2 m ρ c) (Proc.devRef .tc main_v51) = _
  after_results_simp
  rw [exit0_arg1 m ρ c, exit0_arg3 m ρ c]
  rfl

end Cert.KernelIdeal.Hand

end
-- ==== Proof.KernelValue.lean ====
/-
  The kernel program's two results as functions of its arguments.
  The second launch's result buffer is that launch's own result array: the combine layer of the contents the launch
  was entered from. The first launch's result buffer is written by nothing after that launch (the second host stretch
  and the second launch write other buffers), so it still holds the first launch's result array: the layer of the
  contents THAT launch was entered from. With the entry contents named (the arguments as started; the three computed
  operands as the reference's stage functions of the arguments), the user output is
      combine (per-user mean of gathered item rows) (gathered user table) W_l_iu W_r_iu b_iu
  and the item output is
      combine (per-item mean of gathered user rows) item_x W_l_ui W_r_ui b_ui.
-/
import proofs.«141635_j4269197492519_1_alg».proof.Proof.KernelRun
import proofs.«141635_j4269197492519_1_alg».proof.Proof.Blocks
import proofs.«141635_j4269197492519_1_alg».proof.Proof.HostChain

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable (m : (ℓ : Loc nD τ sig) → Buf (Elt Ideal) ℓ) (ρ : Dev nD → PrngReg)

/-- No operation of the second host stretch writes the reference in the goal. -/
local macro "not_written" : tactic =>
  `(tactic| (refine StableHlo.after_of_forall_not_mem _ _ (List.forall_iff_forall_mem.mp ?_)
             simp only [hostOps0, hostOps1, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- The user output as a function of the arguments. -/
abbrev userOut (c : Dev nD) : Buf (Elt Ideal) ((c.tc : Thread nD τ).loc main_v52) :=
  Cert.Sage.combine
    (Cert.ReferenceIdeal.Read.val_main_v56 (F := Ideal) (m ((c : Thread nD τ).loc main_arg1)) (m ((c : Thread nD τ).loc main_arg3)))
    (Cert.ReferenceIdeal.Read.val_main_v6 (F := Ideal) (m ((c : Thread nD τ).loc main_arg0)) (m ((c : Thread nD τ).loc main_arg4)))
    (m ((c : Thread nD τ).loc main_arg8)) (m ((c : Thread nD τ).loc main_arg9)) (m ((c : Thread nD τ).loc main_arg10))

/-- The item output as a function of the arguments. -/
abbrev itemOut (c : Dev nD) : Buf (Elt Ideal) ((c.tc : Thread nD τ).loc main_v29) :=
  Cert.Sage.combine
    (Cert.ReferenceIdeal.Read.val_main_v28 (F := Ideal) (m ((c : Thread nD τ).loc main_arg0)) (m ((c : Thread nD τ).loc main_arg2)) (m ((c : Thread nD τ).loc main_arg4)))
    (m ((c : Thread nD τ).loc main_arg1))
    (m ((c : Thread nD τ).loc main_arg5)) (m ((c : Thread nD τ).loc main_arg6)) (m ((c : Thread nD τ).loc main_arg7))

/-- After the last segment the user output's buffer holds the second launch's result array. -/
theorem last_user (c : Dev nD) : W4 m ρ c (Proc.devRef .tc main_v52) = userOut m c := by
  refine (W4_arr m ρ c 5).trans ((final1 (V3 m ρ) c).trans ?_)
  rw [entry1_mean m ρ c, entry1_users m ρ c, entry1_arg8 m ρ c, entry1_arg9 m ρ c, entry1_arg10 m ρ c]

/-- After the last segment the item output's buffer still holds the first launch's result array. -/
theorem last_item (c : Dev nD) : W4 m ρ c (Proc.devRef .tc main_v29) = itemOut m c := by
  have h43 : W4 m ρ c (Proc.devRef .tc main_v29) = W3 m ρ c (Proc.devRef .tc main_v29) := W4_of_ne m ρ c main_v29 (by decide)
  have h32 : W3 m ρ c (Proc.devRef .tc main_v29) = W2 m ρ c (Proc.devRef .tc main_v29) :=
    (show StableHlo.after hostOps1 (W2 m ρ c) (Proc.devRef .tc main_v29) = W2 m ρ c (Proc.devRef .tc main_v29) by not_written)
  refine h43.trans (h32.trans ((W2_arr m ρ c 5).trans ((final0 (V1 m ρ) c).trans ?_)))
  rw [entry0_mean m ρ c, entry0_arg1 m ρ c, entry0_arg5 m ρ c, entry0_arg6 m ρ c, entry0_arg7 m ρ c]

/-- The run, read: both results at their functions of the arguments, the arguments unchanged. -/
theorem run : θ_run defs (onTc (τ := τ) (main (F := Ideal))) ⟨m, fun _ => 0, ρ⟩ (fun r => ∀ c : Dev nD,
      r.2.mem ((c.tc : Thread nD τ).loc main_v52) = userOut m c
      ∧ r.2.mem ((c.tc : Thread nD τ).loc main_v29) = itemOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (last_user m ρ c), (h c).2.1.trans (last_item m ρ c), (h c).2.2⟩)
    (Cert.KernelIdeal.Gen.run_named (F := Ideal) m ρ)

end Cert.KernelIdeal.Hand

end
-- ==== Proof.RefValue.lean ====
/-
  The reference's two results are the combine layer of `Spec.lean` applied to its own intermediate stages:
  the item output is the layer of (the per-item mean of gathered user rows, the item features, the first pair of
  weights, the first bias); the user output is the layer of (the per-user mean of gathered item rows, the gathered
  user table, the second pair of weights, the second bias). At the exact instance a host `dot_general` with one
  contracted axis is the row-by-column sum, the two broadcasts of a bias read `b[c]` at `(r, c)`, and the additions
  associate exactly as the layer's do, so the two sides are one expression once the indices are spelt by coordinates.
  The means and the gathered table are carried as opaque stages: nothing here opens a gather or a scatter.
-/
import proofs.«141635_j4269197492519_1_alg».proof.Defs
import proofs.«141635_j4269197492519_1_alg».proof.Proof.Gen.ReferenceIdeal.Run
import proofs.«141635_j4269197492519_1_alg».proof.Proof.Gen.ReferenceIdeal.Read
import proofs.«141635_j4269197492519_1_alg».proof.Proof.Spec

noncomputable section

open scoped BigOperators
open Idealize.ShloMosaic Idealize.ShloMosaic.ValueIdx

namespace Cert.ReferenceIdeal.RefValue

open Cert.ReferenceIdeal Cert.ReferenceIdeal.Read

/-! ## The composed index functions, by coordinates -/

theorem l29 (r : Fin 50000) (c k : Fin 128) : lidx_main_v29 (ix2 r c) k = ix2 r k :=
  funext fun a => Fin.ext (by match a with | ⟨0, _⟩ => rfl | ⟨1, _⟩ => rfl)
theorem r29 (r : Fin 50000) (c k : Fin 128) : ridx_main_v29 (ix2 r c) k = ix2 k c :=
  funext fun a => Fin.ext (by match a with | ⟨0, _⟩ => rfl | ⟨1, _⟩ => rfl)
theorem l30 (r : Fin 50000) (c k : Fin 128) : lidx_main_v30 (ix2 r c) k = ix2 r k :=
  funext fun a => Fin.ext (by match a with | ⟨0, _⟩ => rfl | ⟨1, _⟩ => rfl)
theorem r30 (r : Fin 50000) (c k : Fin 128) : ridx_main_v30 (ix2 r c) k = ix2 k c :=
  funext fun a => Fin.ext (by match a with | ⟨0, _⟩ => rfl | ⟨1, _⟩ => rfl)
theorem b33 (r : Fin 50000) (c : Fin 128) : idx_main_v32 (idx_main_v33 (ix2 r c)) = ix1 c :=
  funext fun a => Fin.ext (by match a with | ⟨0, _⟩ => rfl)
theorem l57 (r : Fin 50000) (c k : Fin 128) : lidx_main_v57 (ix2 r c) k = ix2 r k :=
  funext fun a => Fin.ext (by match a with | ⟨0, _⟩ => rfl | ⟨1, _⟩ => rfl)
theorem r57 (r : Fin 50000) (c k : Fin 128) : ridx_main_v57 (ix2 r c) k = ix2 k c :=
  funext fun a => Fin.ext (by match a with | ⟨0, _⟩ => rfl | ⟨1, _⟩ => rfl)
theorem l58 (r : Fin 50000) (c k : Fin 128) : lidx_main_v58 (ix2 r c) k = ix2 r k :=
  funext fun a => Fin.ext (by match a with | ⟨0, _⟩ => rfl | ⟨1, _⟩ => rfl)
theorem r58 (r : Fin 50000) (c k : Fin 128) : ridx_main_v58 (ix2 r c) k = ix2 k c :=
  funext fun a => Fin.ext (by match a with | ⟨0, _⟩ => rfl | ⟨1, _⟩ => rfl)
theorem b61 (r : Fin 50000) (c : Fin 128) : idx_main_v60 (idx_main_v61 (ix2 r c)) = ix1 c :=
  funext fun a => Fin.ext (by match a with | ⟨0, _⟩ => rfl)

/-! ## The two results -/

/-- The item output: the layer of the per-item mean and the item features. -/
theorem item_out (x0 : (⟨S50000, .i32⟩ : BufTy).Contents (Elt Ideal)) (x1 : (⟨S50000x128, .f32⟩ : BufTy).Contents (Elt Ideal))
    (x2 : (⟨S2x800000, .i32⟩ : BufTy).Contents (Elt Ideal)) (x4 : (⟨S50000x128, .f32⟩ : BufTy).Contents (Elt Ideal))
    (x5 x6 : (⟨S128x128, .f32⟩ : BufTy).Contents (Elt Ideal)) (x7 : (⟨S128, .f32⟩ : BufTy).Contents (Elt Ideal)) :
    val_main_v34 (F := Ideal) x0 x1 x2 x4 x5 x6 x7
      = Cert.Sage.combine (val_main_v28 (F := Ideal) x0 x2 x4) x1 x5 x6 x7 := by
  funext i
  obtain ⟨r, c, rfl⟩ : ∃ (r : Fin 50000) (c : Fin 128), i = ix2 r c := ⟨i 0, i 1, eq_ix2 i⟩
  rw [val_main_v34_apply, val_main_v31_apply, val_main_v29_apply, val_main_v30_apply, val_main_v33_apply, val_main_v32_apply,
    Cert.Sage.combine_apply]
  simp only [l29, r29, l30, r30, b33]
  rfl

/-- The user output: the layer of the per-user mean and the gathered user table. -/
theorem user_out (x0 : (⟨S50000, .i32⟩ : BufTy).Contents (Elt Ideal)) (x1 : (⟨S50000x128, .f32⟩ : BufTy).Contents (Elt Ideal))
    (x3 : (⟨S2x800000, .i32⟩ : BufTy).Contents (Elt Ideal)) (x4 : (⟨S50000x128, .f32⟩ : BufTy).Contents (Elt Ideal))
    (x8 x9 : (⟨S128x128, .f32⟩ : BufTy).Contents (Elt Ideal)) (x10 : (⟨S128, .f32⟩ : BufTy).Contents (Elt Ideal)) :
    val_main_v62 (F := Ideal) x0 x1 x3 x4 x8 x9 x10
      = Cert.Sage.combine (val_main_v56 (F := Ideal) x1 x3) (val_main_v6 (F := Ideal) x0 x4) x8 x9 x10 := by
  funext i
  obtain ⟨r, c, rfl⟩ : ∃ (r : Fin 50000) (c : Fin 128), i = ix2 r c := ⟨i 0, i 1, eq_ix2 i⟩
  rw [val_main_v62_apply, val_main_v59_apply, val_main_v57_apply, val_main_v58_apply, val_main_v61_apply, val_main_v60_apply,
    Cert.Sage.combine_apply]
  simp only [l57, r57, l58, r58, b61]
  rfl

end Cert.ReferenceIdeal.RefValue

end
-- ==== Proof.lean ====
/-
  Heterogeneous SAGE convolution over two edge types: the Pallas program against its jnp reference, over the
  extended reals.

  Both programs do the same host work on the same arguments: gather the user table by the user ids, gather message
  rows along one row of an edge list, scatter-add them (and a column of ones) by the other row, take the maximum of
  the counts with one, divide. They differ only in the last step of each edge type, the combine layer
      out[r, c] = (∑ₖ agg[r,k] · Wl[k,c] + ∑ₖ other[r,k] · Wr[k,c]) + b[c],
  which the reference writes as two `dot_general`s, an add and a broadcast add on all 50000 rows, and the kernel as one
  launch over ten blocks of 5000 rows, casting its operands to bf16 and accumulating two block products in f32. Over
  the extended reals a change of float format is the identity and both kinds of product are the plain 128-term sums,
  added in the same order, so the two programs compute the same function of the arguments entry by entry. No
  algebraic law beyond that is used, so the precondition (finite inputs) is never opened.

  The modules: `Spec` (the layer as a function of whole arrays, and that a block of its rows needs only those rows),
  `Payload` (what a launch stores is the layer of its loaded blocks), `Blocks` (the ten write-backs tile the result: the
  array ends holding the layer of the arrays the launch was entered from), `KernelRun` (the program's run with the two
  result buffers named), `HostChain` (the contents each launch is entered from, as the reference's own stage functions
  of the arguments), `KernelValue` (the two results as functions of the arguments), `RefValue` (the reference's two
  results are the same layer of the same stages). Below: the three frames, the empty ledger, and the equivalence.
-/
import proofs.«141635_j4269197492519_1_alg».proof.Defs
import proofs.«141635_j4269197492519_1_alg».proof.Proof.Gen.Kernel
import proofs.«141635_j4269197492519_1_alg».proof.Proof.Gen.Kernel.Skeleton
import proofs.«141635_j4269197492519_1_alg».proof.Proof.Gen.Kernel.Launch
import proofs.«141635_j4269197492519_1_alg».proof.Proof.Gen.Kernel.Points
import proofs.«141635_j4269197492519_1_alg».proof.Proof.Gen.Kernel.Frame
import proofs.«141635_j4269197492519_1_alg».proof.Proof.Gen.KernelIdeal
import proofs.«141635_j4269197492519_1_alg».proof.Proof.Gen.KernelIdeal.Skeleton
import proofs.«141635_j4269197492519_1_alg».proof.Proof.Gen.KernelIdeal.Launch
import proofs.«141635_j4269197492519_1_alg».proof.Proof.Gen.KernelIdeal.Points
import proofs.«141635_j4269197492519_1_alg».proof.Proof.Gen.KernelIdeal.Frame
import proofs.«141635_j4269197492519_1_alg».proof.Proof.Gen.ReferenceIdeal
import proofs.«141635_j4269197492519_1_alg».proof.Proof.Gen.ReferenceIdeal.Run
import proofs.«141635_j4269197492519_1_alg».proof.Proof.Gen.ReferenceIdeal.Read
import proofs.«141635_j4269197492519_1_alg».proof.Proof.Gen.Pre_finite_inputs
import proofs.«141635_j4269197492519_1_alg».proof.Proof.KernelValue
import proofs.«141635_j4269197492519_1_alg».proof.Proof.RefValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run, the two results dropped
    exact fun m ρ _ => (θ_run Cert.ReferenceIdeal.defs _ _).mono (fun _ h c => (h c).2.2)
      (Cert.ReferenceIdeal.Value.run (F := Ideal) m ρ)
  · -- both programs end with the user output and the item output at the same functions of the arguments
    intro m ρ m' ρ' _ hagree
    refine ⟨fun c => Cert.KernelIdeal.Hand.userOut m c, fun c => Cert.KernelIdeal.Hand.itemOut m c,
      Cert.KernelIdeal.Hand.run m ρ, ?_⟩
    refine (θ_run Cert.ReferenceIdeal.defs _ _).mono (fun _ h c => ?_) (Cert.ReferenceIdeal.Value.run (F := Ideal) m' ρ')
    obtain ⟨hu, hi, hargs⟩ := h c
    obtain ⟨e0, e1, e2, e3, e4, e5, e6, e7, e8, e9, e10⟩ := hagree c
    refine ⟨hu.trans ?_, hi.trans ?_, hargs⟩
    · rw [Cert.ReferenceIdeal.Read.val_main_v62_eq, Cert.ReferenceIdeal.RefValue.user_out, e0, e1, e3, e4, e8, e9, e10]
    · rw [Cert.ReferenceIdeal.Read.val_main_v34_eq, Cert.ReferenceIdeal.RefValue.item_out, e0, e1, e2, e4, e5, e6, e7]⟩

end Cert.Proof

end
